-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S64x16 .f32) (main_arg7 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S10000x64 : Shape := ⟨2, ![10000, 64]⟩
abbrev S1600000x64 : Shape := ⟨2, ![1600000, 64]⟩
abbrev S100000x1 : Shape := ⟨2, ![100000, 1]⟩
abbrev S1x64 : Shape := ⟨2, ![1, 64]⟩
abbrev S2000x64 : Shape := ⟨2, ![2000, 64]⟩
abbrev S2000x1 : Shape := ⟨2, ![2000, 1]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 84
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x1, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x1, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S1600000x1, .f32⟩
  | .hbm, ⟨73, _⟩ => ⟨S1600000x64, .f32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S100000x1, .f32⟩
  | .hbm, ⟨80, _⟩ => ⟨S1x64, .f32⟩
  | .hbm, ⟨81, _⟩ => ⟨S100000x64, .f32⟩
  | .hbm, ⟨82, _⟩ => ⟨S1x16, .f32⟩
  | .hbm, ⟨83, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S10000x64, .f32⟩
  | .local _ .vmem, ⟨29, _⟩ => ⟨S10000x64, .f32⟩
  | .local _ .vmem, ⟨30, _⟩ => ⟨S64x16, .f32⟩
  | .local _ .vmem, ⟨31, _⟩ => ⟨S1x16, .f32⟩
  | .local _ .vmem, ⟨32, _⟩ => ⟨S10000x16, .f32⟩
  | .local _ .vmem, ⟨33, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S10000x64_S10000x64 : S10000x64.ShapeCasts S10000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x16.size a ≤ S100000x16.size a
  hwx4_3 : ∀ i : grid4.Coords, EltTy.bits .f32 = 32 ∨ (Rect.block (s := S100000x16) S10000x16.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S10000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x1, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S1600000x1, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S100000x1, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x16, .f32⟩
  | .hbm, ⟨97, _⟩ => ⟨S1x16, .f32⟩
  | .hbm, ⟨98, _⟩ => ⟨S100000x16, .f32⟩
  | .hbm, ⟨99, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.HostFacts.lean ====
/-
  The host stretches of the kernel's program, read at the buffers later items use. Between its dense
  layers the program computes, exactly as the reference does, the degree normalisation from the edge list
  (scatter-add of ones, plus one, reciprocal square root, gathered at both ends of every edge) and each layer's
  neighbourhood sum (gather the transformed rows at the edge sources, scale by the edge weights, scatter-add at the
  edge targets). Each such value is stated here as the reference's own stage of the same operands, for any
  buffer contents the stretch is entered with; a buffer a stretch does not write keeps its contents.
-/
import proofs.«132353_j33432025432567_1_alg».proof.Proof.Gen.KernelIdeal.Launch
import proofs.«132353_j33432025432567_1_alg».proof.Proof.Gen.ReferenceIdeal.Read
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable (W : Valuation τ sig (Elt Ideal))

/-! ## Before the first layer: the edge list's two rows, the edge weights, the self-loop weights -/

theorem s0_v1 : after hostOps0 W (Proc.devRef .tc main_v1) = Cert.ReferenceIdeal.Read.val_main_v1 (F := Ideal) (W (Proc.devRef .tc main_arg1)) := by
  after_results_simp
  simp only [Cert.ReferenceIdeal.Read.val_main_v1, Cert.ReferenceIdeal.Read.val_main_v0]
  rfl

theorem s0_v3 : after hostOps0 W (Proc.devRef .tc main_v3) = Cert.ReferenceIdeal.Read.val_main_v3 (F := Ideal) (W (Proc.devRef .tc main_arg1)) := by
  after_results_simp
  simp only [Cert.ReferenceIdeal.Read.val_main_v3, Cert.ReferenceIdeal.Read.val_main_v2]
  rfl

theorem s0_v26 : after hostOps0 W (Proc.devRef .tc main_v26) = Cert.ReferenceIdeal.Read.val_main_v26 (F := Ideal) (W (Proc.devRef .tc main_arg1)) := by
  after_results_simp
  simp only [Cert.ReferenceIdeal.Read.val_main_v26, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_cst, Cert.ReferenceIdeal.Read.val_main_cst_0, Cert.ReferenceIdeal.Read.val_main_cst_1]
  rfl

theorem s0_v25 : after hostOps0 W (Proc.devRef .tc main_v25) = Cert.ReferenceIdeal.Read.val_main_v25 (F := Ideal) (W (Proc.devRef .tc main_arg1)) := by
  after_results_simp
  simp only [Cert.ReferenceIdeal.Read.val_main_v25, Cert.ReferenceIdeal.Read.val_main_v24, Cert.ReferenceIdeal.Read.val_main_v23, Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0, Cert.ReferenceIdeal.Read.val_main_cst, Cert.ReferenceIdeal.Read.val_main_cst_0, Cert.ReferenceIdeal.Read.val_main_cst_1, Cert.ReferenceIdeal.Read.val_main_c, Cert.ReferenceIdeal.Read.val_main_c_2, Cert.ReferenceIdeal.Read.val_main_c_3, Cert.ReferenceIdeal.Read.val_main_c_4]
  rfl

theorem s0_keep_arg0 : after hostOps0 W (Proc.devRef .tc main_arg0) = W (Proc.devRef .tc main_arg0) := by
  after_results_simp

theorem s0_keep_arg2 : after hostOps0 W (Proc.devRef .tc main_arg2) = W (Proc.devRef .tc main_arg2) := by
  after_results_simp

theorem s0_keep_arg3 : after hostOps0 W (Proc.devRef .tc main_arg3) = W (Proc.devRef .tc main_arg3) := by
  after_results_simp

theorem s0_keep_arg4 : after hostOps0 W (Proc.devRef .tc main_arg4) = W (Proc.devRef .tc main_arg4) := by
  after_results_simp

theorem s0_keep_arg5 : after hostOps0 W (Proc.devRef .tc main_arg5) = W (Proc.devRef .tc main_arg5) := by
  after_results_simp

theorem s0_keep_arg6 : after hostOps0 W (Proc.devRef .tc main_arg6) = W (Proc.devRef .tc main_arg6) := by
  after_results_simp

theorem s0_keep_arg7 : after hostOps0 W (Proc.devRef .tc main_arg7) = W (Proc.devRef .tc main_arg7) := by
  after_results_simp

/-! ## Between the first layer's two regions: its neighbourhood sum, the self-loop column, the bias row -/

theorem s1_v40 (e : (⟨S2x1600000, .i32⟩ : BufTy).Contents (Elt Ideal)) (x : (⟨S100000x64, .f32⟩ : BufTy).Contents (Elt Ideal)) (w : (⟨S64x64, .f32⟩ : BufTy).Contents (Elt Ideal))
    (h1 : W (Proc.devRef .tc main_v1) = Cert.ReferenceIdeal.Read.val_main_v1 (F := Ideal) e) (h3 : W (Proc.devRef .tc main_v3) = Cert.ReferenceIdeal.Read.val_main_v3 (F := Ideal) e)
    (h25 : W (Proc.devRef .tc main_v25) = Cert.ReferenceIdeal.Read.val_main_v25 (F := Ideal) e) (h27 : W (Proc.devRef .tc main_v27) = Cert.ReferenceIdeal.Read.val_main_v27 (F := Ideal) x w) :
    after hostOps1 W (Proc.devRef .tc main_v40) = Cert.ReferenceIdeal.Read.val_main_v40 (F := Ideal) x e w := by
  after_results_simp
  rw [h1, h3, h25, h27]
  simp only [Cert.ReferenceIdeal.Read.val_main_v40, Cert.ReferenceIdeal.Read.val_main_v39, Cert.ReferenceIdeal.Read.val_main_v38, Cert.ReferenceIdeal.Read.val_main_v37, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_v31, Cert.ReferenceIdeal.Read.val_main_v30, Cert.ReferenceIdeal.Read.val_main_v29, Cert.ReferenceIdeal.Read.val_main_v28, Cert.ReferenceIdeal.Read.val_main_c_5, Cert.ReferenceIdeal.Read.val_main_c_6, Cert.ReferenceIdeal.Read.val_main_cst_7]
  rfl

theorem s1_v41 (e : (⟨S2x1600000, .i32⟩ : BufTy).Contents (Elt Ideal)) (h26 : W (Proc.devRef .tc main_v26) = Cert.ReferenceIdeal.Read.val_main_v26 (F := Ideal) e) :
    after hostOps1 W (Proc.devRef .tc main_v41) = shapeCast S100000x1 (Cert.ReferenceIdeal.Read.val_main_v26 (F := Ideal) e) shapeCasts_S100000_S100000x1 := by
  after_results_simp
  rw [h26]
  rfl

theorem s1_v42 : after hostOps1 W (Proc.devRef .tc main_v42) = shapeCast S1x64 (W (Proc.devRef .tc main_arg3)) shapeCasts_S64_S1x64 := by
  after_results_simp
  rfl

theorem s1_keep_v1 : after hostOps1 W (Proc.devRef .tc main_v1) = W (Proc.devRef .tc main_v1) := by
  after_results_simp

theorem s1_keep_v3 : after hostOps1 W (Proc.devRef .tc main_v3) = W (Proc.devRef .tc main_v3) := by
  after_results_simp

theorem s1_keep_v25 : after hostOps1 W (Proc.devRef .tc main_v25) = W (Proc.devRef .tc main_v25) := by
  after_results_simp

theorem s1_keep_v26 : after hostOps1 W (Proc.devRef .tc main_v26) = W (Proc.devRef .tc main_v26) := by
  after_results_simp

theorem s1_keep_v27 : after hostOps1 W (Proc.devRef .tc main_v27) = W (Proc.devRef .tc main_v27) := by
  after_results_simp

theorem s1_keep_arg4 : after hostOps1 W (Proc.devRef .tc main_arg4) = W (Proc.devRef .tc main_arg4) := by
  after_results_simp

theorem s1_keep_arg5 : after hostOps1 W (Proc.devRef .tc main_arg5) = W (Proc.devRef .tc main_arg5) := by
  after_results_simp

theorem s1_keep_arg6 : after hostOps1 W (Proc.devRef .tc main_arg6) = W (Proc.devRef .tc main_arg6) := by
  after_results_simp

theorem s1_keep_arg7 : after hostOps1 W (Proc.devRef .tc main_arg7) = W (Proc.devRef .tc main_arg7) := by
  after_results_simp

/-! ## Between the second layer's two regions -/

theorem s3_v57 (e : (⟨S2x1600000, .i32⟩ : BufTy).Contents (Elt Ideal)) (x : (⟨S100000x64, .f32⟩ : BufTy).Contents (Elt Ideal)) (w1 : (⟨S64x64, .f32⟩ : BufTy).Contents (Elt Ideal))
    (b1 : (⟨S64, .f32⟩ : BufTy).Contents (Elt Ideal)) (w2 : (⟨S64x64, .f32⟩ : BufTy).Contents (Elt Ideal))
    (h1 : W (Proc.devRef .tc main_v1) = Cert.ReferenceIdeal.Read.val_main_v1 (F := Ideal) e) (h3 : W (Proc.devRef .tc main_v3) = Cert.ReferenceIdeal.Read.val_main_v3 (F := Ideal) e)
    (h25 : W (Proc.devRef .tc main_v25) = Cert.ReferenceIdeal.Read.val_main_v25 (F := Ideal) e) (h44 : W (Proc.devRef .tc main_v44) = Cert.ReferenceIdeal.Read.val_main_v49 (F := Ideal) x e w1 b1 w2) :
    after hostOps3 W (Proc.devRef .tc main_v57) = Cert.ReferenceIdeal.Read.val_main_v62 (F := Ideal) x e w1 b1 w2 := by
  after_results_simp
  rw [h1, h3, h25, h44]
  simp only [Cert.ReferenceIdeal.Read.val_main_v62, Cert.ReferenceIdeal.Read.val_main_v61, Cert.ReferenceIdeal.Read.val_main_v60, Cert.ReferenceIdeal.Read.val_main_v59, Cert.ReferenceIdeal.Read.val_main_v58, Cert.ReferenceIdeal.Read.val_main_v57, Cert.ReferenceIdeal.Read.val_main_v56, Cert.ReferenceIdeal.Read.val_main_v55, Cert.ReferenceIdeal.Read.val_main_v54, Cert.ReferenceIdeal.Read.val_main_v53, Cert.ReferenceIdeal.Read.val_main_v52, Cert.ReferenceIdeal.Read.val_main_v51, Cert.ReferenceIdeal.Read.val_main_v50, Cert.ReferenceIdeal.Read.val_main_c_8, Cert.ReferenceIdeal.Read.val_main_c_9, Cert.ReferenceIdeal.Read.val_main_cst_10]
  rfl

theorem s3_v58 (e : (⟨S2x1600000, .i32⟩ : BufTy).Contents (Elt Ideal)) (h26 : W (Proc.devRef .tc main_v26) = Cert.ReferenceIdeal.Read.val_main_v26 (F := Ideal) e) :
    after hostOps3 W (Proc.devRef .tc main_v58) = shapeCast S100000x1 (Cert.ReferenceIdeal.Read.val_main_v26 (F := Ideal) e) shapeCasts_S100000_S100000x1 := by
  after_results_simp
  rw [h26]
  rfl

theorem s3_v59 : after hostOps3 W (Proc.devRef .tc main_v59) = shapeCast S1x64 (W (Proc.devRef .tc main_arg5)) shapeCasts_S64_S1x64 := by
  after_results_simp
  rfl

theorem s3_keep_v44 : after hostOps3 W (Proc.devRef .tc main_v44) = W (Proc.devRef .tc main_v44) := by
  after_results_simp

theorem s3_keep_arg6 : after hostOps3 W (Proc.devRef .tc main_arg6) = W (Proc.devRef .tc main_arg6) := by
  after_results_simp

theorem s3_keep_arg7 : after hostOps3 W (Proc.devRef .tc main_arg7) = W (Proc.devRef .tc main_arg7) := by
  after_results_simp

/-! ## Before the head: the bias row -/

theorem s4_v61 : after hostOps4 W (Proc.devRef .tc main_v61) = shapeCast S1x16 (W (Proc.devRef .tc main_arg7)) shapeCasts_S16_S1x16 := by
  after_results_simp
  rfl

theorem s4_keep_v60 : after hostOps4 W (Proc.devRef .tc main_v60) = W (Proc.devRef .tc main_v60) := by
  after_results_simp

theorem s4_keep_arg6 : after hostOps4 W (Proc.devRef .tc main_arg6) = W (Proc.devRef .tc main_arg6) := by
  after_results_simp

end Cert.KernelIdeal.Host

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Spec.lean ====
/-
  The three dense layers of a two-layer graph convolution, as whole-array functions over the extended reals.

  A node feature array `x : [M, K]` meets a weight array `w : [K, N]` row by row,
      lin x w [r, q] = ∑ k, x[r, k] * w[k, q];
  a layer closes by adding to the neighbourhood sum `a` the node's own transformed row `h` scaled by the node's
  self-loop weight `s` (one number per node, kept as a column `[M, 1]`) and the bias `b` (one number per feature, kept
  as a row `[1, N]`), and cutting negative values off at zero,
      fin a h s b [r, q] = max (a[r, q] + h[r, q] * s[r, 0] + b[0, q]) 0;
  the head is the linear layer plus a bias row,
      linb x w b [r, q] = (∑ k, x[r, k] * w[k, q]) + b[0, q].
  Each is also what the corresponding array operations compute: the host's general dot product, the chain
  broadcast / multiply / add / maximum over a column made from a vector and a row made from a vector.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«132353_j33432025432567_1_alg».proof.Proof.LibDot2

noncomputable section

open scoped BigOperators

namespace Cert.Gcn

open Idealize.ShloMosaic Idealize.ShloMosaic.ValueIdx

/-- The linear layer: row `r` of `x` against column `q` of `w`. -/
def lin {M K N : Nat} (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

theorem lin_apply {M K N : Nat} (x : (⟨2, ![M, K]⟩ : Shape).Idx → EReal) (w : (⟨2, ![K, N]⟩ : Shape).Idx → EReal)
    (p : Fin M) (q : Fin N) : lin x w (ix2 p q) = ∑ k : Fin K, x (ix2 p k) * w (ix2 k q) := rfl

/-- The layer's closing step: neighbourhood sum, plus the node's own row scaled by its self-loop weight, plus the
    bias, negative values cut off at zero. -/
def fin {M N : Nat} (a h : (⟨2, ![M, N]⟩ : Shape).Idx → EReal) (s : (⟨2, ![M, 1]⟩ : Shape).Idx → EReal)
    (b : (⟨2, ![1, N]⟩ : Shape).Idx → EReal) : (⟨2, ![M, N]⟩ : Shape).Idx → EReal :=
  fun j => max (a j + h j * s (ix2 (j 0) (0 : Fin 1)) + b (ix2 (0 : Fin 1) (j 1))) (Ideal.ofBits .f32 0x00000000#32)

theorem fin_apply {M N : Nat} (a h : (⟨2, ![M, N]⟩ : Shape).Idx → EReal) (s : (⟨2, ![M, 1]⟩ : Shape).Idx → EReal)
    (b : (⟨2, ![1, N]⟩ : Shape).Idx → EReal) (p : Fin M) (q : Fin N) :
    fin a h s b (ix2 p q)
      = max (a (ix2 p q) + h (ix2 p q) * s (ix2 p (0 : Fin 1)) + b (ix2 (0 : Fin 1) q)) (Ideal.ofBits .f32 0x00000000#32) := rfl

/-- The head: the linear layer plus a bias row. -/
def linb {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => (∑ k : Fin K, x (ix2 (j 0) k) * w (ix2 k (j 1))) + b (ix2 (0 : Fin 1) (j 1))

theorem linb_apply {M K N : Nat} (x : (⟨2, ![M, K]⟩ : Shape).Idx → EReal) (w : (⟨2, ![K, N]⟩ : Shape).Idx → EReal)
    (b : (⟨2, ![1, N]⟩ : Shape).Idx → EReal) (p : Fin M) (q : Fin N) :
    linb x w b (ix2 p q) = (∑ k : Fin K, x (ix2 p k) * w (ix2 k q)) + b (ix2 (0 : Fin 1) q) := rfl

/-- The linear layer is the host's general dot product with the plain matrix-product dimension numbers. -/
theorem lin_eq_hostDot {M K N : Nat}
    (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32) :
    lin x w = Host.dotGeneral (Dot2.mmDims M K N wf) prec x w := by
  funext j
  obtain ⟨p, q, rfl⟩ : ∃ (p : Fin M) (q : Fin N), j = ix2 p q := ⟨j 0, j 1, eq_ix2 j⟩
  rw [Dot2.host_dotGeneral_mm_apply]
  rfl

/-- A vector `[a]` recast as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn

end
-- ==== Proof.Region0.lean ====
/-
  The first linear layer, read off its pipeline: ten row blocks of 10000 nodes each. At grid point `t` the body
  multiplies rows `10000 t … 10000 t + 9999` of the node features by the whole weight array and writes the
  product back as the same rows of the result, so after the ten write-backs row `r` of the result is row `r` of
  the features against the weights: `lin x w`. The two operands are rounded to a narrower float format on the
  way into the product, which at the extended reals changes nothing.
-/
import proofs.«132353_j33432025432567_1_alg».proof.Proof.Gen.KernelIdeal.Frame
import proofs.«132353_j33432025432567_1_alg».proof.Proof.Spec
import Idealize.ShloMosaic.Lib.Pipeline.Value

set_option maxRecDepth 16384

noncomputable section

open scoped BigOperators

namespace Cert.KernelIdeal.Lin0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at `(p, q)`: row `p` of the feature block against column `q` of the weights. -/
theorem pay_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  exact Dot2.matmul_zero_mm_apply _ none (truncf .bf16 x0 bitsLt_bf16_f32) (truncf .bf16 x1 bitsLt_bf16_f32) p q

/-- The block indices over the grid: the features and the result move down one row block per point, the weights
    stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `10000 t …` of `lin x w`. -/
theorem flushed_eq (c : Dev nD) (t : Fin cfg0.N) :
    (dat0 V c).flushed 2 t
      = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  have ht : t.val < 10 := Nat.lt_of_lt_of_eq t.isLt N_0
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = Cert.Gcn.lin (V c main_arg0) (V c main_arg2) (((cfg0.win 2).blk t).view.emb (ix2 p q))
  refine (pay_apply (iblk0 V c 0 t) (iblk0 V c 1 t) p q).trans ?_
  have hemb : ((cfg0.win 2).blk t).view.emb (ix2 p q)
      = ix2 (⟨t.val * 10000 + p.val, by have := p.isLt; omega⟩ : Fin 100000) q := by
    funext a; apply Fin.ext
    match a with
    | ⟨0, _⟩ => show win0_2.index t (0 : Fin 2) * 10000 + 1 * p.val = t.val * 10000 + p.val; rw [e4]; omega
    | ⟨1, _⟩ => show win0_2.index t (1 : Fin 2) * 64 + 1 * q.val = q.val; rw [e5]; omega
  rw [hemb, Cert.Gcn.lin_apply]
  refine Finset.sum_congr rfl fun k _ => ?_
  have h0 : iblk0 V c 0 t (ix2 p k)
      = V c main_arg0 (ix2 (⟨t.val * 10000 + p.val, by have := p.isLt; omega⟩ : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = t.val * 10000 + p.val; rw [e0]; omega
    | ⟨1, _⟩ => show win0_0.index t (1 : Fin 2) * 64 + 1 * k.val = k.val; rw [e1]; omega
  have h1 : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 64 + 1 * k.val = k.val; rw [e2]; omega
    | ⟨1, _⟩ => show win0_1.index t (1 : Fin 2) * 64 + 1 * q.val = q.val; rw [e3]; omega
  rw [h0, h1]

/-- An index of the result lies in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v27).slice (win0_2.rect t)).set ↔ _
  rw [View.set_slice_whole, Rect.mem_set_unit]
  exact Iff.rfl

/-- Row `r` of the result is written by the point `r / 10000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, htv⟩ : ∃ t : Fin cfg0.N, t.val = (i 0).val / 10000 := ⟨⟨(i 0).val / 10000, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [e4, htv]; omega
  | ⟨1, _⟩ =>
    show win0_2.index t (1 : Fin 2) * 64 ≤ (i 1).val ∧ (i 1).val < win0_2.index t (1 : Fin 2) * 64 + 64
    rw [e5]; omega

/-- After the region the result array holds `lin` of the features and the weights as the region found them. -/
theorem final0 (c : Dev nD) : (dat0 V c).arrAt 2 cfg0.N = Cert.Gcn.lin (V c main_arg0) (V c main_arg2) :=
  (dat0 V c).arrAt_eq_of_cover 2 _ (fun t _ => flushed_eq V c t) (cover)

end Cert.KernelIdeal.Lin0

end
-- ==== Proof.Region1.lean ====
/-
  The closing step of the first graph-convolution layer, read off its pipeline: fifty row blocks of 2000 nodes
  each. At grid point `t` the body takes rows `2000 t … 2000 t + 1999` of the neighbourhood sums `a` and of the
  nodes' own transformed rows `h`, the same rows of the column `s` of self-loop weights (one number per node) and the
  one bias row `b` (one number per feature, the same block at every point), and writes back, as the same rows of the
  result,
      max (a[r, q] + h[r, q] * s[r, 0] + b[0, q]) 0.
  The column is spread along the features and the row along the nodes before the arithmetic, so each entry of the
  block meets its own node's weight and its own feature's bias. The fifty blocks tile the rows, so after the fifty
  write-backs row `r` of the result, written by point `r / 2000`, is row `r` of `fin a h s b`.
-/
import proofs.«132353_j33432025432567_1_alg».proof.Proof.Gen.KernelIdeal.Frame
import proofs.«132353_j33432025432567_1_alg».proof.Proof.Spec
import Idealize.ShloMosaic.Lib.Pipeline.Value

set_option maxRecDepth 16384

noncomputable section

open scoped BigOperators

namespace Cert.KernelIdeal.Fin1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at `(p, q)`: the sum entry, plus the own-row entry scaled by row `p`'s weight, plus feature
    `q`'s bias, cut off below at zero. -/
theorem pay_apply (x0 x1 : Vec Ideal S2000x64 .f32) (x2 : Vec Ideal S2000x1 .f32) (x3 : Vec Ideal S1x64 .f32)
    (p : Fin 2000) (q : Fin 64) :
    k1_pay1 x0 x1 x2 x3 (ix2 p q)
      = max (x0 (ix2 p q) + x1 (ix2 p q) * x2 (ix2 p (0 : Fin 1)) + x3 (ix2 (0 : Fin 1) q))
          (Ideal.ofBits .f32 0x00000000#32) := by
  unfold k1_pay1
  simp only [shapeCast_self]
  show max (x0 (ix2 p q) + x1 (ix2 p q) * broadcastTo S2000x64 x2 broadcasts_S2000x1_S2000x64 (ix2 p q)
      + broadcastTo S2000x64 x3 broadcasts_S1x64_S2000x64 (ix2 p q)) (Ideal.ofBits .f32 0x00000000#32) = _
  rw [broadcastTo_a1_ab_apply x2 broadcasts_S2000x1_S2000x64 p q,
    broadcastTo_1b_ab_apply x3 broadcasts_S1x64_S2000x64 p q]

/-- The block indices over the grid: the sums, the own rows, the weight column and the result move down one row
    block per point, the bias row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is rows `2000 t …` of `fin a h s b`. -/
theorem flushed_eq (c : Dev nD) (t : Fin cfg1.N) :
    (dat1 V c).flushed 4 t
      = ((cfg1.win 4).blk t).view.read (Elt Ideal)
          (Cert.Gcn.fin (V c main_v40) (V c main_v27) (V c main_v41) (V c main_v42)) := by
  show (cfg1.win 4).cut (grid1.coords t) ((dat1 V c).after 4 t) = _
  rw [after1_4]
  unfold out1_4
  rw [View.canon_unit_zero hz]
  simp only [View.ld_unit_zero (S := S2000x64) hz, View.ld_unit_zero (S := S2000x1) hz,
    View.ld_unit_zero (S := S1x64) hz]
  obtain ⟨e0, e1, e2, e3, e4, e5, e6, e7, e8, e9⟩ := idx_facts t
  have ht : t.val < 50 := Nat.lt_of_lt_of_eq t.isLt N_1
  funext j
  obtain ⟨p, q, rfl⟩ : ∃ (p : Fin 2000) (q : Fin 64), j = ix2 p q := ⟨j 0, j 1, eq_ix2 j⟩
  show k1_pay1 (iblk1 V c 0 t) (iblk1 V c 1 t) (iblk1 V c 2 t) (iblk1 V c 3 t) (ix2 p q)
    = Cert.Gcn.fin (V c main_v40) (V c main_v27) (V c main_v41) (V c main_v42)
        (((cfg1.win 4).blk t).view.emb (ix2 p q))
  refine (pay_apply (iblk1 V c 0 t) (iblk1 V c 1 t) (iblk1 V c 2 t) (iblk1 V c 3 t) p q).trans ?_
  have hemb : ((cfg1.win 4).blk t).view.emb (ix2 p q)
      = ix2 (⟨t.val * 2000 + p.val, by have := p.isLt; omega⟩ : Fin 100000) q := by
    funext a; apply Fin.ext
    match a with
    | ⟨0, _⟩ => show win1_4.index t (0 : Fin 2) * 2000 + 1 * p.val = t.val * 2000 + p.val; rw [e8]; omega
    | ⟨1, _⟩ => show win1_4.index t (1 : Fin 2) * 64 + 1 * q.val = q.val; rw [e9]; omega
  rw [hemb, Cert.Gcn.fin_apply]
  have h0 : iblk1 V c 0 t (ix2 p q)
      = V c main_v40 (ix2 (⟨t.val * 2000 + p.val, by have := p.isLt; omega⟩ : Fin 100000) q) := by
    show V c main_v40 (((cfg1.win 0).blk t).view.emb (ix2 p q)) = _
    refine congrArg (V c main_v40) ?_
    funext a; apply Fin.ext
    match a with
    | ⟨0, _⟩ => show win1_0.index t (0 : Fin 2) * 2000 + 1 * p.val = t.val * 2000 + p.val; rw [e0]; omega
    | ⟨1, _⟩ => show win1_0.index t (1 : Fin 2) * 64 + 1 * q.val = q.val; rw [e1]; omega
  have h1 : iblk1 V c 1 t (ix2 p q)
      = V c main_v27 (ix2 (⟨t.val * 2000 + p.val, by have := p.isLt; omega⟩ : Fin 100000) q) := by
    show V c main_v27 (((cfg1.win 1).blk t).view.emb (ix2 p q)) = _
    refine congrArg (V c main_v27) ?_
    funext a; apply Fin.ext
    match a with
    | ⟨0, _⟩ => show win1_1.index t (0 : Fin 2) * 2000 + 1 * p.val = t.val * 2000 + p.val; rw [e2]; omega
    | ⟨1, _⟩ => show win1_1.index t (1 : Fin 2) * 64 + 1 * q.val = q.val; rw [e3]; omega
  have h2 : iblk1 V c 2 t (ix2 p (0 : Fin 1))
      = V c main_v41 (ix2 (⟨t.val * 2000 + p.val, by have := p.isLt; omega⟩ : Fin 100000) (0 : Fin 1)) := by
    show V c main_v41 (((cfg1.win 2).blk t).view.emb (ix2 p (0 : Fin 1))) = _
    refine congrArg (V c main_v41) ?_
    funext a; apply Fin.ext
    match a with
    | ⟨0, _⟩ => show win1_2.index t (0 : Fin 2) * 2000 + 1 * p.val = t.val * 2000 + p.val; rw [e4]; omega
    | ⟨1, _⟩ => show win1_2.index t (1 : Fin 2) * 1 + 1 * 0 = 0; rw [e5]
  have h3 : iblk1 V c 3 t (ix2 (0 : Fin 1) q) = V c main_v42 (ix2 (0 : Fin 1) q) := by
    show V c main_v42 (((cfg1.win 3).blk t).view.emb (ix2 (0 : Fin 1) q)) = _
    refine congrArg (V c main_v42) ?_
    funext a; apply Fin.ext
    match a with
    | ⟨0, _⟩ => show win1_3.index t (0 : Fin 2) * 1 + 1 * 0 = 0; rw [e6]
    | ⟨1, _⟩ => show win1_3.index t (1 : Fin 2) * 64 + 1 * q.val = q.val; rw [e7]; omega
  rw [h0, h1, h2, h3]

/-- An index of the result lies in point `t`'s block iff each coordinate is in the block's range on its axis. -/
theorem mem_blk (t : Fin cfg1.N) (i : S100000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_v43).slice (win1_4.rect t)).set ↔ _
  rw [View.set_slice_whole, Rect.mem_set_unit]
  exact Iff.rfl

/-- Row `r` of the result is written by the point `r / 2000`. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 50 := N_1
  obtain ⟨t, htv⟩ : ∃ t : Fin cfg1.N, t.val = (i 0).val / 2000 := ⟨⟨(i 0).val / 2000, by rw [hN]; omega⟩, rfl⟩
  obtain ⟨-, -, -, -, -, -, -, -, e8, e9⟩ := idx_facts t
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    rw [e8, htv]; omega
  | ⟨1, _⟩ =>
    show win1_4.index t (1 : Fin 2) * 64 ≤ (i 1).val ∧ (i 1).val < win1_4.index t (1 : Fin 2) * 64 + 64
    rw [e9]; omega

/-- After the region the result array holds `fin` of the sums, the own rows, the weight column and the bias row as
    the region found them. -/
theorem final1 (c : Dev nD) :
    (dat1 V c).arrAt 4 cfg1.N = Cert.Gcn.fin (V c main_v40) (V c main_v27) (V c main_v41) (V c main_v42) :=
  (dat1 V c).arrAt_eq_of_cover 4 _ (fun t _ => flushed_eq V c t) (cover)

end Cert.KernelIdeal.Fin1

end
-- ==== Proof.Region2.lean ====
/-
  The second linear layer, read off its pipeline: ten row blocks of 10000 nodes each. At grid point `t` the body
  takes rows `10000 t … 10000 t + 9999` of the hidden features (the first layer's output), multiplies them by
  the whole second weight array, and writes the product back as the same rows of the result. The ten row blocks
  are disjoint and together are all 100000 rows, so after the ten write-backs row `r` of the result is row `r`
  of the hidden features against the weights: `lin h w`. On the way into the product the feature block is recast
  to the shape it already has, and both operands are rounded to a narrower float format; at the extended reals
  neither changes any entry.
-/
import proofs.«132353_j33432025432567_1_alg».proof.Proof.Gen.KernelIdeal.Frame
import proofs.«132353_j33432025432567_1_alg».proof.Proof.Spec
import Idealize.ShloMosaic.Lib.Pipeline.Value

set_option maxRecDepth 16384

noncomputable section

open scoped BigOperators

namespace Cert.KernelIdeal.Lin2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at `(p, q)`: row `p` of the feature block against column `q` of the weights. The recast
    of the feature block to its own shape is the identity, and the two roundings are the identity on extended
    reals. -/
theorem pay_apply (x0 : Vec Ideal S10000x64 .f32) (x1 : Vec Ideal S64x64 .f32) (p : Fin 10000) (q : Fin 64) :
    k2_pay1 x0 x1 (ix2 p q) = ∑ k : Fin 64, x0 (ix2 p k) * x1 (ix2 k q) := by
  have hc : shapeCast S10000x64 x0 shapeCasts_S10000x64_S10000x64 = x0 := shapeCast_self x0 _
  unfold k2_pay1
  refine (Dot2.matmul_zero_mm_apply _ none
    (truncf .bf16 (shapeCast S10000x64 x0 shapeCasts_S10000x64_S10000x64) bitsLt_bf16_f32)
    (truncf .bf16 x1 bitsLt_bf16_f32) p q).trans ?_
  rw [hc]
  rfl

/-- The block indices over the grid: the features and the result move down one row block per point, the weights
    stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is rows `10000 t …` of `lin h w`. -/
theorem flushed_eq (c : Dev nD) (t : Fin cfg2.N) :
    (dat2 V c).flushed 2 t
      = ((cfg2.win 2).blk t).view.read (Elt Ideal) (Cert.Gcn.lin (V c main_v43) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  have ht : t.val < 10 := Nat.lt_of_lt_of_eq t.isLt N_2
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
    = Cert.Gcn.lin (V c main_v43) (V c main_arg4) (((cfg2.win 2).blk t).view.emb (ix2 p q))
  refine (pay_apply (iblk2 V c 0 t) (iblk2 V c 1 t) p q).trans ?_
  have hemb : ((cfg2.win 2).blk t).view.emb (ix2 p q)
      = ix2 (⟨t.val * 10000 + p.val, by have := p.isLt; omega⟩ : Fin 100000) q := by
    funext a; apply Fin.ext
    match a with
    | ⟨0, _⟩ => show win2_2.index t (0 : Fin 2) * 10000 + 1 * p.val = t.val * 10000 + p.val; rw [e4]; omega
    | ⟨1, _⟩ => show win2_2.index t (1 : Fin 2) * 64 + 1 * q.val = q.val; rw [e5]; omega
  rw [hemb, Cert.Gcn.lin_apply]
  refine Finset.sum_congr rfl fun k _ => ?_
  have h0 : iblk2 V c 0 t (ix2 p k)
      = V c main_v43 (ix2 (⟨t.val * 10000 + p.val, by have := p.isLt; omega⟩ : Fin 100000) k) := by
    show V c main_v43 (((cfg2.win 0).blk t).view.emb (ix2 p k)) = _
    refine congrArg (V c main_v43) ?_
    funext a; apply Fin.ext
    match a with
    | ⟨0, _⟩ => show win2_0.index t (0 : Fin 2) * 10000 + 1 * p.val = t.val * 10000 + p.val; rw [e0]; omega
    | ⟨1, _⟩ => show win2_0.index t (1 : Fin 2) * 64 + 1 * k.val = k.val; rw [e1]; omega
  have h1 : iblk2 V c 1 t (ix2 k q) = V c main_arg4 (ix2 k q) := by
    show V c main_arg4 (((cfg2.win 1).blk t).view.emb (ix2 k q)) = _
    refine congrArg (V c main_arg4) ?_
    funext a; apply Fin.ext
    match a with
    | ⟨0, _⟩ => show win2_1.index t (0 : Fin 2) * 64 + 1 * k.val = k.val; rw [e2]; omega
    | ⟨1, _⟩ => show win2_1.index t (1 : Fin 2) * 64 + 1 * q.val = q.val; rw [e3]; omega
  rw [h0, h1]

/-- An index of the result lies in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v44).slice (win2_2.rect t)).set ↔ _
  rw [View.set_slice_whole, Rect.mem_set_unit]
  exact Iff.rfl

/-- Row `r` of the result is written by the point `r / 10000`. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, htv⟩ : ∃ t : Fin cfg2.N, t.val = (i 0).val / 10000 := ⟨⟨(i 0).val / 10000, by rw [hN]; omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    rw [e4, htv]; omega
  | ⟨1, _⟩ =>
    show win2_2.index t (1 : Fin 2) * 64 ≤ (i 1).val ∧ (i 1).val < win2_2.index t (1 : Fin 2) * 64 + 64
    rw [e5]; omega

/-- After the region the result array holds `lin` of the hidden features and the second weights as the region
    found them. -/
theorem final2 (c : Dev nD) : (dat2 V c).arrAt 2 cfg2.N = Cert.Gcn.lin (V c main_v43) (V c main_arg4) :=
  (dat2 V c).arrAt_eq_of_cover 2 _ (fun t _ => flushed_eq V c t) (cover)

end Cert.KernelIdeal.Lin2

end
-- ==== Proof.Region3.lean ====
/-
  The closing step of the second graph-convolution layer, read off its pipeline: fifty row blocks of 2000 nodes
  each. At grid point `t` the body takes rows `2000 t … 2000 t + 1999` of the neighbourhood sums `a` and of the
  nodes' own transformed rows `h`, the same rows of the column `s` of self-loop weights (one number per node) and the
  one bias row `b` (one number per feature, the same block at every point), and writes back, as the same rows of the
  result,
      max (a[r, q] + h[r, q] * s[r, 0] + b[0, q]) 0.
  The column is spread along the features and the row along the nodes before the arithmetic, so each entry of the
  block meets its own node's weight and its own feature's bias. The fifty blocks tile the rows, so after the fifty
  write-backs row `r` of the result, written by point `r / 2000`, is row `r` of `fin a h s b`.
-/
import proofs.«132353_j33432025432567_1_alg».proof.Proof.Gen.KernelIdeal.Frame
import proofs.«132353_j33432025432567_1_alg».proof.Proof.Spec
import Idealize.ShloMosaic.Lib.Pipeline.Value

set_option maxRecDepth 16384

noncomputable section

open scoped BigOperators

namespace Cert.KernelIdeal.Fin3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at `(p, q)`: the sum entry, plus the own-row entry scaled by row `p`'s weight, plus feature
    `q`'s bias, cut off below at zero. -/
theorem pay_apply (x0 x1 : Vec Ideal S2000x64 .f32) (x2 : Vec Ideal S2000x1 .f32) (x3 : Vec Ideal S1x64 .f32)
    (p : Fin 2000) (q : Fin 64) :
    k3_pay1 x0 x1 x2 x3 (ix2 p q)
      = max (x0 (ix2 p q) + x1 (ix2 p q) * x2 (ix2 p (0 : Fin 1)) + x3 (ix2 (0 : Fin 1) q))
          (Ideal.ofBits .f32 0x00000000#32) := by
  unfold k3_pay1
  simp only [shapeCast_self]
  show max (x0 (ix2 p q) + x1 (ix2 p q) * broadcastTo S2000x64 x2 broadcasts_S2000x1_S2000x64 (ix2 p q)
      + broadcastTo S2000x64 x3 broadcasts_S1x64_S2000x64 (ix2 p q)) (Ideal.ofBits .f32 0x00000000#32) = _
  rw [broadcastTo_a1_ab_apply x2 broadcasts_S2000x1_S2000x64 p q,
    broadcastTo_1b_ab_apply x3 broadcasts_S1x64_S2000x64 p q]

/-- The block indices over the grid: the sums, the own rows, the weight column and the result move down one row
    block per point, the bias row stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is rows `2000 t …` of `fin a h s b`. -/
theorem flushed_eq (c : Dev nD) (t : Fin cfg3.N) :
    (dat3 V c).flushed 4 t
      = ((cfg3.win 4).blk t).view.read (Elt Ideal)
          (Cert.Gcn.fin (V c main_v57) (V c main_v44) (V c main_v58) (V c main_v59)) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz,
    View.ld_unit_zero (S := S1x64) hz]
  obtain ⟨e0, e1, e2, e3, e4, e5, e6, e7, e8, e9⟩ := idx_facts t
  have ht : t.val < 50 := Nat.lt_of_lt_of_eq t.isLt N_3
  funext j
  obtain ⟨p, q, rfl⟩ : ∃ (p : Fin 2000) (q : Fin 64), j = ix2 p q := ⟨j 0, j 1, eq_ix2 j⟩
  show k3_pay1 (iblk3 V c 0 t) (iblk3 V c 1 t) (iblk3 V c 2 t) (iblk3 V c 3 t) (ix2 p q)
    = Cert.Gcn.fin (V c main_v57) (V c main_v44) (V c main_v58) (V c main_v59)
        (((cfg3.win 4).blk t).view.emb (ix2 p q))
  refine (pay_apply (iblk3 V c 0 t) (iblk3 V c 1 t) (iblk3 V c 2 t) (iblk3 V c 3 t) p q).trans ?_
  have hemb : ((cfg3.win 4).blk t).view.emb (ix2 p q)
      = ix2 (⟨t.val * 2000 + p.val, by have := p.isLt; omega⟩ : Fin 100000) q := by
    funext a; apply Fin.ext
    match a with
    | ⟨0, _⟩ => show win3_4.index t (0 : Fin 2) * 2000 + 1 * p.val = t.val * 2000 + p.val; rw [e8]; omega
    | ⟨1, _⟩ => show win3_4.index t (1 : Fin 2) * 64 + 1 * q.val = q.val; rw [e9]; omega
  rw [hemb, Cert.Gcn.fin_apply]
  have h0 : iblk3 V c 0 t (ix2 p q)
      = V c main_v57 (ix2 (⟨t.val * 2000 + p.val, by have := p.isLt; omega⟩ : Fin 100000) q) := by
    show V c main_v57 (((cfg3.win 0).blk t).view.emb (ix2 p q)) = _
    refine congrArg (V c main_v57) ?_
    funext a; apply Fin.ext
    match a with
    | ⟨0, _⟩ => show win3_0.index t (0 : Fin 2) * 2000 + 1 * p.val = t.val * 2000 + p.val; rw [e0]; omega
    | ⟨1, _⟩ => show win3_0.index t (1 : Fin 2) * 64 + 1 * q.val = q.val; rw [e1]; omega
  have h1 : iblk3 V c 1 t (ix2 p q)
      = V c main_v44 (ix2 (⟨t.val * 2000 + p.val, by have := p.isLt; omega⟩ : Fin 100000) q) := by
    show V c main_v44 (((cfg3.win 1).blk t).view.emb (ix2 p q)) = _
    refine congrArg (V c main_v44) ?_
    funext a; apply Fin.ext
    match a with
    | ⟨0, _⟩ => show win3_1.index t (0 : Fin 2) * 2000 + 1 * p.val = t.val * 2000 + p.val; rw [e2]; omega
    | ⟨1, _⟩ => show win3_1.index t (1 : Fin 2) * 64 + 1 * q.val = q.val; rw [e3]; omega
  have h2 : iblk3 V c 2 t (ix2 p (0 : Fin 1))
      = V c main_v58 (ix2 (⟨t.val * 2000 + p.val, by have := p.isLt; omega⟩ : Fin 100000) (0 : Fin 1)) := by
    show V c main_v58 (((cfg3.win 2).blk t).view.emb (ix2 p (0 : Fin 1))) = _
    refine congrArg (V c main_v58) ?_
    funext a; apply Fin.ext
    match a with
    | ⟨0, _⟩ => show win3_2.index t (0 : Fin 2) * 2000 + 1 * p.val = t.val * 2000 + p.val; rw [e4]; omega
    | ⟨1, _⟩ => show win3_2.index t (1 : Fin 2) * 1 + 1 * 0 = 0; rw [e5]
  have h3 : iblk3 V c 3 t (ix2 (0 : Fin 1) q) = V c main_v59 (ix2 (0 : Fin 1) q) := by
    show V c main_v59 (((cfg3.win 3).blk t).view.emb (ix2 (0 : Fin 1) q)) = _
    refine congrArg (V c main_v59) ?_
    funext a; apply Fin.ext
    match a with
    | ⟨0, _⟩ => show win3_3.index t (0 : Fin 2) * 1 + 1 * 0 = 0; rw [e6]
    | ⟨1, _⟩ => show win3_3.index t (1 : Fin 2) * 64 + 1 * q.val = q.val; rw [e7]; omega
  rw [h0, h1, h2, h3]

/-- An index of the result lies in point `t`'s block iff each coordinate is in the block's range on its axis. -/
theorem mem_blk (t : Fin cfg3.N) (i : S100000x64.Idx) :
    i ∈ ((cfg3.win 4).blk t).view.set ↔ ∀ a : Fin 2, win3_4.index t a * S2000x64.size a ≤ (i a).val
      ∧ (i a).val < win3_4.index t a * S2000x64.size a + S2000x64.size a := by
  show i ∈ ((View.whole main_v60).slice (win3_4.rect t)).set ↔ _
  rw [View.set_slice_whole, Rect.mem_set_unit]
  exact Iff.rfl

/-- Row `r` of the result is written by the point `r / 2000`. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 50 := N_3
  obtain ⟨t, htv⟩ : ∃ t : Fin cfg3.N, t.val = (i 0).val / 2000 := ⟨⟨(i 0).val / 2000, by rw [hN]; omega⟩, rfl⟩
  obtain ⟨-, -, -, -, -, -, -, -, e8, e9⟩ := idx_facts t
  refine ⟨t, flush3_4 t, ?_⟩
  rw [mem_blk]
  intro a
  match a with
  | ⟨0, _⟩ =>
    show win3_4.index t (0 : Fin 2) * 2000 ≤ (i 0).val ∧ (i 0).val < win3_4.index t (0 : Fin 2) * 2000 + 2000
    rw [e8, htv]; omega
  | ⟨1, _⟩ =>
    show win3_4.index t (1 : Fin 2) * 64 ≤ (i 1).val ∧ (i 1).val < win3_4.index t (1 : Fin 2) * 64 + 64
    rw [e9]; omega

/-- After the region the result array holds `fin` of the sums, the own rows, the weight column and the bias row as
    the region found them. -/
theorem final3 (c : Dev nD) :
    (dat3 V c).arrAt 4 cfg3.N = Cert.Gcn.fin (V c main_v57) (V c main_v44) (V c main_v58) (V c main_v59) :=
  (dat3 V c).arrAt_eq_of_cover 4 _ (fun t _ => flushed_eq V c t) (cover)

end Cert.KernelIdeal.Fin3

end
-- ==== Proof.Region4.lean ====
/-
  The head of the network, read off its pipeline: ten row blocks of 10000 nodes each. At grid point `t` the body
  takes rows `10000 t … 10000 t + 9999` of the second layer's output features, multiplies them by the whole
  `[64, 16]` head weight array, adds the one bias row `[1, 16]` to every row of the product, and writes the sum
  back as the same rows of the `[100000, 16]` result. The weights and the bias row are the same at every point.
  The ten row blocks are disjoint and together are all 100000 rows, so after the ten write-backs entry `(r, q)`
  of the result is row `r` of the features against column `q` of the weights, plus entry `q` of the bias row:
  `linb x w b`. On the way in, the feature block and the bias row are each recast to the shape they already
  have, and the two product operands are rounded to a narrower float format; at the extended reals none of these
  changes any entry.
-/
import proofs.«132353_j33432025432567_1_alg».proof.Proof.Gen.KernelIdeal.Frame
import proofs.«132353_j33432025432567_1_alg».proof.Proof.Spec
import Idealize.ShloMosaic.Lib.Pipeline.Value

set_option maxRecDepth 16384

noncomputable section

open scoped BigOperators

namespace Cert.KernelIdeal.Linb4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at `(p, q)`: row `p` of the feature block against column `q` of the weights, plus entry `q`
    of the bias row. The two recasts to the same shape are the identity, the two roundings are the identity on
    extended reals, and the bias row broadcast down the rows reads its one row at every `p`. -/
theorem pay_apply (x0 : Vec Ideal S10000x64 .f32) (x1 : Vec Ideal S64x16 .f32) (x2 : Vec Ideal S1x16 .f32)
    (p : Fin 10000) (q : Fin 16) :
    k4_pay1 x0 x1 x2 (ix2 p q) = (∑ k : Fin 64, x0 (ix2 p k) * x1 (ix2 k q)) + x2 (ix2 (0 : Fin 1) q) := by
  have hc0 : shapeCast S10000x64 x0 shapeCasts_S10000x64_S10000x64 = x0 := shapeCast_self x0 _
  have hc2 : shapeCast S1x16 x2 shapeCasts_S1x16_S1x16 = x2 := shapeCast_self x2 _
  unfold k4_pay1
  refine (addf_apply _ _ (ix2 p q)).trans ?_
  refine congrArg₂ (· + ·) ?_ ?_
  · refine (Dot2.matmul_zero_mm_apply _ none
      (truncf .bf16 (shapeCast S10000x64 x0 shapeCasts_S10000x64_S10000x64) bitsLt_bf16_f32)
      (truncf .bf16 x1 bitsLt_bf16_f32) p q).trans ?_
    rw [hc0]
    rfl
  · refine (broadcastTo_1b_ab_apply (shapeCast S1x16 x2 shapeCasts_S1x16_S1x16) broadcasts_S1x16_S10000x16 p q).trans ?_
    rw [hc2]

/-- The block indices over the grid: the features and the result move down one row block per point, the weights
    and the bias row stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is rows `10000 t …` of `linb x w b`. -/
theorem flushed_eq (c : Dev nD) (t : Fin cfg4.N) :
    (dat4 V c).flushed 3 t
      = ((cfg4.win 3).blk t).view.read (Elt Ideal)
          (Cert.Gcn.linb (V c main_v60) (V c main_arg6) (V c main_v61)) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x16) hz,
    View.ld_unit_zero (S := S1x16) hz]
  obtain ⟨e0, e1, e2, e3, e4, e5, e6, e7⟩ := idx_facts t
  have ht : t.val < 10 := Nat.lt_of_lt_of_eq t.isLt N_4
  funext j
  obtain ⟨p, q, rfl⟩ : ∃ (p : Fin 10000) (q : Fin 16), j = ix2 p q := ⟨j 0, j 1, eq_ix2 j⟩
  show k4_pay1 (iblk4 V c 0 t) (iblk4 V c 1 t) (iblk4 V c 2 t) (ix2 p q)
    = Cert.Gcn.linb (V c main_v60) (V c main_arg6) (V c main_v61) (((cfg4.win 3).blk t).view.emb (ix2 p q))
  refine (pay_apply (iblk4 V c 0 t) (iblk4 V c 1 t) (iblk4 V c 2 t) p q).trans ?_
  have hemb : ((cfg4.win 3).blk t).view.emb (ix2 p q)
      = ix2 (⟨t.val * 10000 + p.val, by have := p.isLt; omega⟩ : Fin 100000) q := by
    funext a; apply Fin.ext
    match a with
    | ⟨0, _⟩ => show win4_3.index t (0 : Fin 2) * 10000 + 1 * p.val = t.val * 10000 + p.val; rw [e6]; omega
    | ⟨1, _⟩ => show win4_3.index t (1 : Fin 2) * 16 + 1 * q.val = q.val; rw [e7]; omega
  rw [hemb, Cert.Gcn.linb_apply]
  have h2 : iblk4 V c 2 t (ix2 (0 : Fin 1) q) = V c main_v61 (ix2 (0 : Fin 1) q) := by
    show V c main_v61 (((cfg4.win 2).blk t).view.emb (ix2 (0 : Fin 1) q)) = _
    refine congrArg (V c main_v61) ?_
    funext a; apply Fin.ext
    match a with
    | ⟨0, _⟩ => show win4_2.index t (0 : Fin 2) * 1 + 1 * (0 : Fin 1).val = (0 : Fin 1).val; rw [e4]; rfl
    | ⟨1, _⟩ => show win4_2.index t (1 : Fin 2) * 16 + 1 * q.val = q.val; rw [e5]; omega
  rw [h2]
  refine congrArg (· + V c main_v61 (ix2 (0 : Fin 1) q)) ?_
  refine Finset.sum_congr rfl fun k _ => ?_
  have h0 : iblk4 V c 0 t (ix2 p k)
      = V c main_v60 (ix2 (⟨t.val * 10000 + p.val, by have := p.isLt; omega⟩ : Fin 100000) k) := by
    show V c main_v60 (((cfg4.win 0).blk t).view.emb (ix2 p k)) = _
    refine congrArg (V c main_v60) ?_
    funext a; apply Fin.ext
    match a with
    | ⟨0, _⟩ => show win4_0.index t (0 : Fin 2) * 10000 + 1 * p.val = t.val * 10000 + p.val; rw [e0]; omega
    | ⟨1, _⟩ => show win4_0.index t (1 : Fin 2) * 64 + 1 * k.val = k.val; rw [e1]; omega
  have h1 : iblk4 V c 1 t (ix2 k q) = V c main_arg6 (ix2 k q) := by
    show V c main_arg6 (((cfg4.win 1).blk t).view.emb (ix2 k q)) = _
    refine congrArg (V c main_arg6) ?_
    funext a; apply Fin.ext
    match a with
    | ⟨0, _⟩ => show win4_1.index t (0 : Fin 2) * 64 + 1 * k.val = k.val; rw [e2]; omega
    | ⟨1, _⟩ => show win4_1.index t (1 : Fin 2) * 16 + 1 * q.val = q.val; rw [e3]; omega
  rw [h0, h1]

/-- An index of the result lies in point `t`'s block iff each coordinate is in the block's range on its axis. -/
theorem mem_blk (t : Fin cfg4.N) (i : S100000x16.Idx) :
    i ∈ ((cfg4.win 3).blk t).view.set ↔ ∀ a : Fin 2, win4_3.index t a * S10000x16.size a ≤ (i a).val
      ∧ (i a).val < win4_3.index t a * S10000x16.size a + S10000x16.size a := by
  show i ∈ ((View.whole main_v62).slice (win4_3.rect t)).set ↔ _
  rw [View.set_slice_whole, Rect.mem_set_unit]
  exact Iff.rfl

/-- Row `r` of the result is written by the point `r / 10000`. -/
theorem cover (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  have hN : cfg4.N = 10 := N_4
  obtain ⟨t, htv⟩ : ∃ t : Fin cfg4.N, t.val = (i 0).val / 10000 := ⟨⟨(i 0).val / 10000, by rw [hN]; omega⟩, rfl⟩
  obtain ⟨-, -, -, -, -, -, e6, e7⟩ := idx_facts t
  refine ⟨t, flush4_3 t, ?_⟩
  rw [mem_blk]
  intro a
  match a with
  | ⟨0, _⟩ =>
    show win4_3.index t (0 : Fin 2) * 10000 ≤ (i 0).val ∧ (i 0).val < win4_3.index t (0 : Fin 2) * 10000 + 10000
    rw [e6, htv]; omega
  | ⟨1, _⟩ =>
    show win4_3.index t (1 : Fin 2) * 16 ≤ (i 1).val ∧ (i 1).val < win4_3.index t (1 : Fin 2) * 16 + 16
    rw [e7]; omega

/-- After the region the result array holds `linb` of the features, the head weights and the bias row as the
    region found them. -/
theorem final4 (c : Dev nD) :
    (dat4 V c).arrAt 3 cfg4.N = Cert.Gcn.linb (V c main_v60) (V c main_arg6) (V c main_v61) :=
  (dat4 V c).arrAt_eq_of_cover 3 _ (fun t _ => flushed_eq V c t) (cover)

end Cert.KernelIdeal.Linb4

end
-- ==== Proof.Bridge.lean ====
/-
  The reference's stages are the whole-array functions of the dense layers. Each of its two matrix products is a sum
  over the contracted axis, the left operand read along row `p` and the right along column `q`, which is `lin`. Each
  layer closes with a chain of elementwise stages: the per-node self-loop weight, a vector, broadcast to a column and
  then across the features; the bias, a vector, broadcast to a row and then across the nodes; multiply, add, add, and
  the maximum against zero. Read at `(p, q)`, the two broadcast chains reach the weight vector at `p` and the bias
  vector at `q`, which is what a column and a row recast from those vectors hold at `(p, 0)` and `(0, q)`: the chain
  is `fin`. The head is a matrix product plus a bias broadcast the same way: `linb`.
-/
import proofs.«132353_j33432025432567_1_alg».proof.Proof.Gen.ReferenceIdeal.Read
import proofs.«132353_j33432025432567_1_alg».proof.Proof.Spec

noncomputable section

open scoped BigOperators

namespace Cert.ReferenceIdeal.Bridge

open Cert.ReferenceIdeal Cert.ReferenceIdeal.Gen Cert.ReferenceIdeal.Read Idealize.ShloMosaic Idealize.ShloMosaic.TcCoe
open Idealize.ShloMosaic.ValueIdx

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x16, .f32⟩ : BufTy).Contents (Elt Ideal)) (x7 : (⟨S16, .f32⟩ : BufTy).Contents (Elt Ideal))

/-- The left operand of a product's term `k` at `(p, q)` sits at `(p, k)`. -/
theorem lidx27 (p : Fin 100000) (q : Fin 64) (k : Fin 64) : lidx_main_v27 (ix2 p q) k = ix2 p k :=
  funext fun a => Fin.ext (by match a with | ⟨0, _⟩ => rfl | ⟨1, _⟩ => rfl)

/-- The right operand of a product's term `k` at `(p, q)` sits at `(k, q)`. -/
theorem ridx27 (p : Fin 100000) (q : Fin 64) (k : Fin 64) : ridx_main_v27 (ix2 p q) k = ix2 k q :=
  funext fun a => Fin.ext (by match a with | ⟨0, _⟩ => rfl | ⟨1, _⟩ => rfl)

theorem lidx49 (p : Fin 100000) (q : Fin 64) (k : Fin 64) : lidx_main_v49 (ix2 p q) k = ix2 p k :=
  funext fun a => Fin.ext (by match a with | ⟨0, _⟩ => rfl | ⟨1, _⟩ => rfl)

theorem ridx49 (p : Fin 100000) (q : Fin 64) (k : Fin 64) : ridx_main_v49 (ix2 p q) k = ix2 k q :=
  funext fun a => Fin.ext (by match a with | ⟨0, _⟩ => rfl | ⟨1, _⟩ => rfl)

theorem lidx71 (p : Fin 100000) (q : Fin 16) (k : Fin 64) : lidx_main_v71 (ix2 p q) k = ix2 p k :=
  funext fun a => Fin.ext (by match a with | ⟨0, _⟩ => rfl | ⟨1, _⟩ => rfl)

theorem ridx71 (p : Fin 100000) (q : Fin 16) (k : Fin 64) : ridx_main_v71 (ix2 p q) k = ix2 k q :=
  funext fun a => Fin.ext (by match a with | ⟨0, _⟩ => rfl | ⟨1, _⟩ => rfl)

/-- The first layer's linear stage is `lin` of the features and the first weights. -/
theorem v27_eq : val_main_v27 (F := Ideal) x0 x2 = Cert.Gcn.lin x0 x2 := by
  funext i
  obtain ⟨p, q, rfl⟩ : ∃ (p : Fin 100000) (q : Fin 64), i = ix2 p q := ⟨i 0, i 1, eq_ix2 i⟩
  rw [val_main_v27_apply, Cert.Gcn.lin_apply]
  refine Finset.sum_congr rfl fun k _ => ?_
  rw [lidx27, ridx27]

/-- The second layer's linear stage is `lin` of the first layer's result and the second weights. -/
theorem v49_eq : val_main_v49 (F := Ideal) x0 x1 x2 x3 x4 = Cert.Gcn.lin (val_main_v48 (F := Ideal) x0 x1 x2 x3) x4 := by
  funext i
  obtain ⟨p, q, rfl⟩ : ∃ (p : Fin 100000) (q : Fin 64), i = ix2 p q := ⟨i 0, i 1, eq_ix2 i⟩
  rw [val_main_v49_apply, Cert.Gcn.lin_apply]
  refine Finset.sum_congr rfl fun k _ => ?_
  rw [lidx49, ridx49]

/-- The column made from a vector by two broadcasts reads the vector at the row. -/
theorem col41 (p : Fin 100000) (q : Fin 64) : idx_main_v41 (idx_main_v42 (ix2 p q)) = ix1 p :=
  funext fun a => Fin.ext (by match a with | ⟨0, _⟩ => rfl)

/-- The row made from a vector by two broadcasts reads the vector at the column. -/
theorem row45 (p : Fin 100000) (q : Fin 64) : idx_main_v45 (idx_main_v46 (ix2 p q)) = ix1 q :=
  funext fun a => Fin.ext (by match a with | ⟨0, _⟩ => rfl)

theorem col63 (p : Fin 100000) (q : Fin 64) : idx_main_v63 (idx_main_v64 (ix2 p q)) = ix1 p :=
  funext fun a => Fin.ext (by match a with | ⟨0, _⟩ => rfl)

theorem row67 (p : Fin 100000) (q : Fin 64) : idx_main_v67 (idx_main_v68 (ix2 p q)) = ix1 q :=
  funext fun a => Fin.ext (by match a with | ⟨0, _⟩ => rfl)

theorem row72 (p : Fin 100000) (q : Fin 16) : idx_main_v72 (idx_main_v73 (ix2 p q)) = ix1 q :=
  funext fun a => Fin.ext (by match a with | ⟨0, _⟩ => rfl)

/-- The first layer's closing stages are `fin` of the neighbourhood sum, the linear stage, the self-loop weights
    as a column and the bias as a row. -/
theorem v48_eq (hs : S100000.ShapeCasts S100000x1) (hb : S64.ShapeCasts S1x64) :
    val_main_v48 (F := Ideal) x0 x1 x2 x3
      = Cert.Gcn.fin (val_main_v40 (F := Ideal) x0 x1 x2) (val_main_v27 (F := Ideal) x0 x2)
          (shapeCast S100000x1 (val_main_v26 (F := Ideal) x1) hs) (shapeCast S1x64 x3 hb) := by
  funext i
  obtain ⟨p, q, rfl⟩ : ∃ (p : Fin 100000) (q : Fin 64), i = ix2 p q := ⟨i 0, i 1, eq_ix2 i⟩
  rw [val_main_v48_apply, val_main_v47_apply, val_main_v44_apply, val_main_v43_apply, val_main_v42_apply,
    val_main_v41_apply, val_main_v46_apply, val_main_v45_apply, val_main_call0_v0_apply, val_main_call0_cst_apply,
    col41, row45, Cert.Gcn.fin_apply, Cert.Gcn.shapeCast_a_a1_apply, shapeCast_a_1a_apply]
  rfl

/-- The second layer's closing stages are `fin` of its neighbourhood sum, its linear stage, the self-loop weights
    as a column and its bias as a row. -/
theorem v70_eq (hs : S100000.ShapeCasts S100000x1) (hb : S64.ShapeCasts S1x64) :
    val_main_v70 (F := Ideal) x0 x1 x2 x3 x4 x5
      = Cert.Gcn.fin (val_main_v62 (F := Ideal) x0 x1 x2 x3 x4) (val_main_v49 (F := Ideal) x0 x1 x2 x3 x4)
          (shapeCast S100000x1 (val_main_v26 (F := Ideal) x1) hs) (shapeCast S1x64 x5 hb) := by
  funext i
  obtain ⟨p, q, rfl⟩ : ∃ (p : Fin 100000) (q : Fin 64), i = ix2 p q := ⟨i 0, i 1, eq_ix2 i⟩
  rw [val_main_v70_apply, val_main_v69_apply, val_main_v66_apply, val_main_v65_apply, val_main_v64_apply,
    val_main_v63_apply, val_main_v68_apply, val_main_v67_apply, val_main_call1_v0_apply, val_main_call1_cst_apply,
    col63, row67, Cert.Gcn.fin_apply, Cert.Gcn.shapeCast_a_a1_apply, shapeCast_a_1a_apply]
  rfl

/-- The head's stages are `linb` of the second layer's result, the head's weights and its bias as a row. -/
theorem v74_eq (hb : S16.ShapeCasts S1x16) :
    val_main_v74 (F := Ideal) x0 x1 x2 x3 x4 x5 x6 x7
      = Cert.Gcn.linb (val_main_v70 (F := Ideal) x0 x1 x2 x3 x4 x5) x6 (shapeCast S1x16 x7 hb) := by
  funext i
  obtain ⟨p, q, rfl⟩ : ∃ (p : Fin 100000) (q : Fin 16), i = ix2 p q := ⟨i 0, i 1, eq_ix2 i⟩
  rw [val_main_v74_apply, val_main_v71_apply, val_main_v73_apply, val_main_v72_apply, row72,
    Cert.Gcn.linb_apply, shapeCast_a_1a_apply]
  refine congrArg (· + x7 (ix1 q)) ?_
  refine Finset.sum_congr rfl fun k _ => ?_
  rw [lidx71, ridx71]

end Cert.ReferenceIdeal.Bridge

end
-- ==== Proof.Chain.lean ====
/-
  The kernel's program, boundary by boundary. Its run is a fold of buffer contents through four host stretches
  and five regions; at each boundary the buffers the later items read are identified with the reference's own
  stages of the eight arguments: the edge list's rows, edge weights and self-loop weights after the first stretch;
  the first transformed features after the first linear region (a block-wise product is the whole product); the
  neighbourhood sum after the next stretch; the first layer's output after its closing region (sum + own row times
  self-loop weight + bias, cut at zero, is the reference's add / multiply / add / maximum chain); and so on through the
  second layer to the head, whose output is the reference's result.
-/
import proofs.«132353_j33432025432567_1_alg».proof.Proof.Gen.KernelIdeal.Frame
import proofs.«132353_j33432025432567_1_alg».proof.Proof.HostFacts
import proofs.«132353_j33432025432567_1_alg».proof.Proof.Region0
import proofs.«132353_j33432025432567_1_alg».proof.Proof.Region1
import proofs.«132353_j33432025432567_1_alg».proof.Proof.Region2
import proofs.«132353_j33432025432567_1_alg».proof.Proof.Region3
import proofs.«132353_j33432025432567_1_alg».proof.Proof.Region4
import proofs.«132353_j33432025432567_1_alg».proof.Proof.Bridge

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After the first host stretch -/

theorem w1_v1 : W1 m ρ c (Proc.devRef .tc main_v1) = Cert.ReferenceIdeal.Read.val_main_v1 (F := Ideal) (m ((c : Thread nD τ).loc main_arg1)) :=
  Host.s0_v1 (W0 m ρ c)

theorem w1_v3 : W1 m ρ c (Proc.devRef .tc main_v3) = Cert.ReferenceIdeal.Read.val_main_v3 (F := Ideal) (m ((c : Thread nD τ).loc main_arg1)) :=
  Host.s0_v3 (W0 m ρ c)

theorem w1_v25 : W1 m ρ c (Proc.devRef .tc main_v25) = Cert.ReferenceIdeal.Read.val_main_v25 (F := Ideal) (m ((c : Thread nD τ).loc main_arg1)) :=
  Host.s0_v25 (W0 m ρ c)

theorem w1_v26 : W1 m ρ c (Proc.devRef .tc main_v26) = Cert.ReferenceIdeal.Read.val_main_v26 (F := Ideal) (m ((c : Thread nD τ).loc main_arg1)) :=
  Host.s0_v26 (W0 m ρ c)

theorem w1_arg0 : W1 m ρ c (Proc.devRef .tc main_arg0) = m ((c : Thread nD τ).loc main_arg0) :=
  Host.s0_keep_arg0 (W0 m ρ c)

theorem w1_arg2 : W1 m ρ c (Proc.devRef .tc main_arg2) = m ((c : Thread nD τ).loc main_arg2) :=
  Host.s0_keep_arg2 (W0 m ρ c)

theorem w1_arg3 : W1 m ρ c (Proc.devRef .tc main_arg3) = m ((c : Thread nD τ).loc main_arg3) :=
  Host.s0_keep_arg3 (W0 m ρ c)

theorem w1_arg4 : W1 m ρ c (Proc.devRef .tc main_arg4) = m ((c : Thread nD τ).loc main_arg4) :=
  Host.s0_keep_arg4 (W0 m ρ c)

theorem w1_arg5 : W1 m ρ c (Proc.devRef .tc main_arg5) = m ((c : Thread nD τ).loc main_arg5) :=
  Host.s0_keep_arg5 (W0 m ρ c)

theorem w1_arg6 : W1 m ρ c (Proc.devRef .tc main_arg6) = m ((c : Thread nD τ).loc main_arg6) :=
  Host.s0_keep_arg6 (W0 m ρ c)

theorem w1_arg7 : W1 m ρ c (Proc.devRef .tc main_arg7) = m ((c : Thread nD τ).loc main_arg7) :=
  Host.s0_keep_arg7 (W0 m ρ c)

/-! ## After the first layer's linear region -/

theorem w2_v27 : W2 m ρ c (Proc.devRef .tc main_v27) = Cert.ReferenceIdeal.Read.val_main_v27 (F := Ideal) (m ((c : Thread nD τ).loc main_arg0)) (m ((c : Thread nD τ).loc main_arg2)) := by
  refine (W2_arr m ρ c 2).trans ?_
  refine (Lin0.final0 (V1 m ρ) c).trans ?_
  show Cert.Gcn.lin (W1 m ρ c (Proc.devRef .tc main_arg0)) (W1 m ρ c (Proc.devRef .tc main_arg2)) = _
  rw [w1_arg0 m ρ c, w1_arg2 m ρ c]
  exact (Cert.ReferenceIdeal.Bridge.v27_eq _ _).symm

theorem w2_v1 : W2 m ρ c (Proc.devRef .tc main_v1) = Cert.ReferenceIdeal.Read.val_main_v1 (F := Ideal) (m ((c : Thread nD τ).loc main_arg1)) :=
  (W2_of_ne m ρ c main_v1 (by decide)).trans (w1_v1 m ρ c)

theorem w2_v3 : W2 m ρ c (Proc.devRef .tc main_v3) = Cert.ReferenceIdeal.Read.val_main_v3 (F := Ideal) (m ((c : Thread nD τ).loc main_arg1)) :=
  (W2_of_ne m ρ c main_v3 (by decide)).trans (w1_v3 m ρ c)

theorem w2_v25 : W2 m ρ c (Proc.devRef .tc main_v25) = Cert.ReferenceIdeal.Read.val_main_v25 (F := Ideal) (m ((c : Thread nD τ).loc main_arg1)) :=
  (W2_of_ne m ρ c main_v25 (by decide)).trans (w1_v25 m ρ c)

theorem w2_v26 : W2 m ρ c (Proc.devRef .tc main_v26) = Cert.ReferenceIdeal.Read.val_main_v26 (F := Ideal) (m ((c : Thread nD τ).loc main_arg1)) :=
  (W2_of_ne m ρ c main_v26 (by decide)).trans (w1_v26 m ρ c)

theorem w2_arg3 : W2 m ρ c (Proc.devRef .tc main_arg3) = m ((c : Thread nD τ).loc main_arg3) :=
  (W2_of_ne m ρ c main_arg3 (by decide)).trans (w1_arg3 m ρ c)

theorem w2_arg4 : W2 m ρ c (Proc.devRef .tc main_arg4) = m ((c : Thread nD τ).loc main_arg4) :=
  (W2_of_ne m ρ c main_arg4 (by decide)).trans (w1_arg4 m ρ c)

theorem w2_arg5 : W2 m ρ c (Proc.devRef .tc main_arg5) = m ((c : Thread nD τ).loc main_arg5) :=
  (W2_of_ne m ρ c main_arg5 (by decide)).trans (w1_arg5 m ρ c)

theorem w2_arg6 : W2 m ρ c (Proc.devRef .tc main_arg6) = m ((c : Thread nD τ).loc main_arg6) :=
  (W2_of_ne m ρ c main_arg6 (by decide)).trans (w1_arg6 m ρ c)

theorem w2_arg7 : W2 m ρ c (Proc.devRef .tc main_arg7) = m ((c : Thread nD τ).loc main_arg7) :=
  (W2_of_ne m ρ c main_arg7 (by decide)).trans (w1_arg7 m ρ c)

/-! ## After the host stretch between the first layer's regions -/

theorem w3_v40 : W3 m ρ c (Proc.devRef .tc main_v40) = Cert.ReferenceIdeal.Read.val_main_v40 (F := Ideal) (m ((c : Thread nD τ).loc main_arg0)) (m ((c : Thread nD τ).loc main_arg1)) (m ((c : Thread nD τ).loc main_arg2)) :=
  Host.s1_v40 (W2 m ρ c) _ _ _ (w2_v1 m ρ c) (w2_v3 m ρ c) (w2_v25 m ρ c) (w2_v27 m ρ c)

theorem w3_v41 : W3 m ρ c (Proc.devRef .tc main_v41) = shapeCast S100000x1 (Cert.ReferenceIdeal.Read.val_main_v26 (F := Ideal) (m ((c : Thread nD τ).loc main_arg1))) shapeCasts_S100000_S100000x1 :=
  Host.s1_v41 (W2 m ρ c) _ (w2_v26 m ρ c)

theorem w3_v42 : W3 m ρ c (Proc.devRef .tc main_v42) = shapeCast S1x64 (m ((c : Thread nD τ).loc main_arg3)) shapeCasts_S64_S1x64 :=
  (Host.s1_v42 (W2 m ρ c)).trans (by rw [w2_arg3 m ρ c])

theorem w3_v1 : W3 m ρ c (Proc.devRef .tc main_v1) = Cert.ReferenceIdeal.Read.val_main_v1 (F := Ideal) (m ((c : Thread nD τ).loc main_arg1)) :=
  (Host.s1_keep_v1 (W2 m ρ c)).trans (w2_v1 m ρ c)

theorem w3_v3 : W3 m ρ c (Proc.devRef .tc main_v3) = Cert.ReferenceIdeal.Read.val_main_v3 (F := Ideal) (m ((c : Thread nD τ).loc main_arg1)) :=
  (Host.s1_keep_v3 (W2 m ρ c)).trans (w2_v3 m ρ c)

theorem w3_v25 : W3 m ρ c (Proc.devRef .tc main_v25) = Cert.ReferenceIdeal.Read.val_main_v25 (F := Ideal) (m ((c : Thread nD τ).loc main_arg1)) :=
  (Host.s1_keep_v25 (W2 m ρ c)).trans (w2_v25 m ρ c)

theorem w3_v26 : W3 m ρ c (Proc.devRef .tc main_v26) = Cert.ReferenceIdeal.Read.val_main_v26 (F := Ideal) (m ((c : Thread nD τ).loc main_arg1)) :=
  (Host.s1_keep_v26 (W2 m ρ c)).trans (w2_v26 m ρ c)

theorem w3_v27 : W3 m ρ c (Proc.devRef .tc main_v27) = Cert.ReferenceIdeal.Read.val_main_v27 (F := Ideal) (m ((c : Thread nD τ).loc main_arg0)) (m ((c : Thread nD τ).loc main_arg2)) :=
  (Host.s1_keep_v27 (W2 m ρ c)).trans (w2_v27 m ρ c)

theorem w3_arg4 : W3 m ρ c (Proc.devRef .tc main_arg4) = m ((c : Thread nD τ).loc main_arg4) :=
  (Host.s1_keep_arg4 (W2 m ρ c)).trans (w2_arg4 m ρ c)

theorem w3_arg5 : W3 m ρ c (Proc.devRef .tc main_arg5) = m ((c : Thread nD τ).loc main_arg5) :=
  (Host.s1_keep_arg5 (W2 m ρ c)).trans (w2_arg5 m ρ c)

theorem w3_arg6 : W3 m ρ c (Proc.devRef .tc main_arg6) = m ((c : Thread nD τ).loc main_arg6) :=
  (Host.s1_keep_arg6 (W2 m ρ c)).trans (w2_arg6 m ρ c)

theorem w3_arg7 : W3 m ρ c (Proc.devRef .tc main_arg7) = m ((c : Thread nD τ).loc main_arg7) :=
  (Host.s1_keep_arg7 (W2 m ρ c)).trans (w2_arg7 m ρ c)

/-! ## After the first layer's closing region -/

theorem w4_v43 : W4 m ρ c (Proc.devRef .tc main_v43) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ?_
  refine (Fin1.final1 (V3 m ρ) c).trans ?_
  show Cert.Gcn.fin (W3 m ρ c (Proc.devRef .tc main_v40)) (W3 m ρ c (Proc.devRef .tc main_v27)) (W3 m ρ c (Proc.devRef .tc main_v41)) (W3 m ρ c (Proc.devRef .tc main_v42)) = _
  rw [w3_v40 m ρ c, w3_v27 m ρ c, w3_v41 m ρ c, w3_v42 m ρ c]
  exact (Cert.ReferenceIdeal.Bridge.v48_eq _ _ _ _ _ _).symm

theorem w4_v1 : W4 m ρ c (Proc.devRef .tc main_v1) = Cert.ReferenceIdeal.Read.val_main_v1 (F := Ideal) (m ((c : Thread nD τ).loc main_arg1)) :=
  (W4_of_ne m ρ c main_v1 (by decide)).trans (w3_v1 m ρ c)

theorem w4_v3 : W4 m ρ c (Proc.devRef .tc main_v3) = Cert.ReferenceIdeal.Read.val_main_v3 (F := Ideal) (m ((c : Thread nD τ).loc main_arg1)) :=
  (W4_of_ne m ρ c main_v3 (by decide)).trans (w3_v3 m ρ c)

theorem w4_v25 : W4 m ρ c (Proc.devRef .tc main_v25) = Cert.ReferenceIdeal.Read.val_main_v25 (F := Ideal) (m ((c : Thread nD τ).loc main_arg1)) :=
  (W4_of_ne m ρ c main_v25 (by decide)).trans (w3_v25 m ρ c)

theorem w4_v26 : W4 m ρ c (Proc.devRef .tc main_v26) = Cert.ReferenceIdeal.Read.val_main_v26 (F := Ideal) (m ((c : Thread nD τ).loc main_arg1)) :=
  (W4_of_ne m ρ c main_v26 (by decide)).trans (w3_v26 m ρ c)

theorem w4_arg4 : W4 m ρ c (Proc.devRef .tc main_arg4) = m ((c : Thread nD τ).loc main_arg4) :=
  (W4_of_ne m ρ c main_arg4 (by decide)).trans (w3_arg4 m ρ c)

theorem w4_arg5 : W4 m ρ c (Proc.devRef .tc main_arg5) = m ((c : Thread nD τ).loc main_arg5) :=
  (W4_of_ne m ρ c main_arg5 (by decide)).trans (w3_arg5 m ρ c)

theorem w4_arg6 : W4 m ρ c (Proc.devRef .tc main_arg6) = m ((c : Thread nD τ).loc main_arg6) :=
  (W4_of_ne m ρ c main_arg6 (by decide)).trans (w3_arg6 m ρ c)

theorem w4_arg7 : W4 m ρ c (Proc.devRef .tc main_arg7) = m ((c : Thread nD τ).loc main_arg7) :=
  (W4_of_ne m ρ c main_arg7 (by decide)).trans (w3_arg7 m ρ c)

/-! ## After the second layer's linear region -/

theorem w5_v44 : W5 m ρ c (Proc.devRef .tc main_v44) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  refine (Lin2.final2 (V4 m ρ) c).trans ?_
  show Cert.Gcn.lin (W4 m ρ c (Proc.devRef .tc main_v43)) (W4 m ρ c (Proc.devRef .tc main_arg4)) = _
  rw [w4_v43 m ρ c, w4_arg4 m ρ c]
  exact (Cert.ReferenceIdeal.Bridge.v49_eq _ _ _ _ _).symm

theorem w5_v1 : W5 m ρ c (Proc.devRef .tc main_v1) = Cert.ReferenceIdeal.Read.val_main_v1 (F := Ideal) (m ((c : Thread nD τ).loc main_arg1)) :=
  (W5_of_ne m ρ c main_v1 (by decide)).trans (w4_v1 m ρ c)

theorem w5_v3 : W5 m ρ c (Proc.devRef .tc main_v3) = Cert.ReferenceIdeal.Read.val_main_v3 (F := Ideal) (m ((c : Thread nD τ).loc main_arg1)) :=
  (W5_of_ne m ρ c main_v3 (by decide)).trans (w4_v3 m ρ c)

theorem w5_v25 : W5 m ρ c (Proc.devRef .tc main_v25) = Cert.ReferenceIdeal.Read.val_main_v25 (F := Ideal) (m ((c : Thread nD τ).loc main_arg1)) :=
  (W5_of_ne m ρ c main_v25 (by decide)).trans (w4_v25 m ρ c)

theorem w5_v26 : W5 m ρ c (Proc.devRef .tc main_v26) = Cert.ReferenceIdeal.Read.val_main_v26 (F := Ideal) (m ((c : Thread nD τ).loc main_arg1)) :=
  (W5_of_ne m ρ c main_v26 (by decide)).trans (w4_v26 m ρ c)

theorem w5_arg5 : W5 m ρ c (Proc.devRef .tc main_arg5) = m ((c : Thread nD τ).loc main_arg5) :=
  (W5_of_ne m ρ c main_arg5 (by decide)).trans (w4_arg5 m ρ c)

theorem w5_arg6 : W5 m ρ c (Proc.devRef .tc main_arg6) = m ((c : Thread nD τ).loc main_arg6) :=
  (W5_of_ne m ρ c main_arg6 (by decide)).trans (w4_arg6 m ρ c)

theorem w5_arg7 : W5 m ρ c (Proc.devRef .tc main_arg7) = m ((c : Thread nD τ).loc main_arg7) :=
  (W5_of_ne m ρ c main_arg7 (by decide)).trans (w4_arg7 m ρ c)

/-! ## After the host stretch between the second layer's regions -/

theorem w6_v57 : W6 m ρ c (Proc.devRef .tc main_v57) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Host.s3_v57 (W5 m ρ c) _ _ _ _ _ (w5_v1 m ρ c) (w5_v3 m ρ c) (w5_v25 m ρ c) (w5_v44 m ρ c)

theorem w6_v58 : W6 m ρ c (Proc.devRef .tc main_v58) = shapeCast S100000x1 (Cert.ReferenceIdeal.Read.val_main_v26 (F := Ideal) (m ((c : Thread nD τ).loc main_arg1))) shapeCasts_S100000_S100000x1 :=
  Host.s3_v58 (W5 m ρ c) _ (w5_v26 m ρ c)

theorem w6_v59 : W6 m ρ c (Proc.devRef .tc main_v59) = shapeCast S1x64 (m ((c : Thread nD τ).loc main_arg5)) shapeCasts_S64_S1x64 :=
  (Host.s3_v59 (W5 m ρ c)).trans (by rw [w5_arg5 m ρ c])

theorem w6_v44 : W6 m ρ c (Proc.devRef .tc main_v44) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (Host.s3_keep_v44 (W5 m ρ c)).trans (w5_v44 m ρ c)

theorem w6_arg6 : W6 m ρ c (Proc.devRef .tc main_arg6) = m ((c : Thread nD τ).loc main_arg6) :=
  (Host.s3_keep_arg6 (W5 m ρ c)).trans (w5_arg6 m ρ c)

theorem w6_arg7 : W6 m ρ c (Proc.devRef .tc main_arg7) = m ((c : Thread nD τ).loc main_arg7) :=
  (Host.s3_keep_arg7 (W5 m ρ c)).trans (w5_arg7 m ρ c)

/-! ## After the second layer's closing region -/

theorem w7_v60 : W7 m ρ c (Proc.devRef .tc main_v60) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ?_
  refine (Fin3.final3 (V6 m ρ) c).trans ?_
  show Cert.Gcn.fin (W6 m ρ c (Proc.devRef .tc main_v57)) (W6 m ρ c (Proc.devRef .tc main_v44)) (W6 m ρ c (Proc.devRef .tc main_v58)) (W6 m ρ c (Proc.devRef .tc main_v59)) = _
  rw [w6_v57 m ρ c, w6_v44 m ρ c, w6_v58 m ρ c, w6_v59 m ρ c]
  exact (Cert.ReferenceIdeal.Bridge.v70_eq _ _ _ _ _ _ _ _).symm

theorem w7_arg6 : W7 m ρ c (Proc.devRef .tc main_arg6) = m ((c : Thread nD τ).loc main_arg6) :=
  (W7_of_ne m ρ c main_arg6 (by decide)).trans (w6_arg6 m ρ c)

theorem w7_arg7 : W7 m ρ c (Proc.devRef .tc main_arg7) = m ((c : Thread nD τ).loc main_arg7) :=
  (W7_of_ne m ρ c main_arg7 (by decide)).trans (w6_arg7 m ρ c)

/-! ## After the last host stretch -/

theorem w8_v61 : W8 m ρ c (Proc.devRef .tc main_v61) = shapeCast S1x16 (m ((c : Thread nD τ).loc main_arg7)) shapeCasts_S16_S1x16 :=
  (Host.s4_v61 (W7 m ρ c)).trans (by rw [w7_arg7 m ρ c])

theorem w8_v60 : W8 m ρ c (Proc.devRef .tc main_v60) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Host.s4_keep_v60 (W7 m ρ c)).trans (w7_v60 m ρ c)

theorem w8_arg6 : W8 m ρ c (Proc.devRef .tc main_arg6) = m ((c : Thread nD τ).loc main_arg6) :=
  (Host.s4_keep_arg6 (W7 m ρ c)).trans (w7_arg6 m ρ c)

/-! ## The result -/

/-- The result buffer after the head region is the reference's last stage of the same arguments. -/
theorem result_eq : W9 m ρ c (Proc.devRef .tc main_v62) = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 3).trans ?_
  refine (Linb4.final4 (V8 m ρ) c).trans ?_
  show Cert.Gcn.linb (W8 m ρ c (Proc.devRef .tc main_v60)) (W8 m ρ c (Proc.devRef .tc main_arg6)) (W8 m ρ c (Proc.devRef .tc main_v61)) = _
  rw [w8_v60 m ρ c, w8_arg6 m ρ c, w8_v61 m ρ c]
  exact (Cert.ReferenceIdeal.Bridge.v74_eq _ _ _ _ _ _ _ _ _).symm

end Cert.KernelIdeal.Chain

end
-- ==== Proof.lean ====
/-
  A two-layer graph convolution with a linear head, computed by five pipelined regions among host stretches,
  against its array-level reference, over the extended reals.

  Both programs first turn the edge list into edge weights and self-loop weights (in-degree plus one, reciprocal
  square root, gathered at both ends of each edge) and, per layer, form the neighbourhood sum by gather, scale and
  scatter-add: the same host operations on both sides. They differ in the dense steps. The kernel multiplies row
  blocks of the node features by the weight array, block by block, after rounding both operands to a narrower float
  format; at the extended reals the rounding is the identity and a product taken block by block is the whole product.
  It closes a layer with one fused region, sum + own row times self-loop weight + bias, cut at zero, where the reference
  broadcasts a column and a row to full size and chains multiply, add, add, maximum: index by index the two are the same
  expression, in the same association, so no law beyond the definitions is used and the inputs' finiteness is
  never opened. The head is the linear layer plus a bias row on both sides.

  The three frames are the generated frame certificates; the ideal pass rewrote nothing, so preservation is trivial;
  the equivalence is the kernel's run with its result buffer named (the launch theorem once more), that buffer
  identified with the reference's last stage boundary by boundary, and the reference's generated run.
-/
import proofs.«132353_j33432025432567_1_alg».proof.Defs
import proofs.«132353_j33432025432567_1_alg».proof.Proof.Gen.Kernel
import proofs.«132353_j33432025432567_1_alg».proof.Proof.Gen.Kernel.Skeleton
import proofs.«132353_j33432025432567_1_alg».proof.Proof.Gen.Kernel.Launch
import proofs.«132353_j33432025432567_1_alg».proof.Proof.Gen.Kernel.Points
import proofs.«132353_j33432025432567_1_alg».proof.Proof.Gen.Kernel.Frame
import proofs.«132353_j33432025432567_1_alg».proof.Proof.Gen.KernelIdeal
import proofs.«132353_j33432025432567_1_alg».proof.Proof.Gen.KernelIdeal.Skeleton
import proofs.«132353_j33432025432567_1_alg».proof.Proof.Gen.KernelIdeal.Launch
import proofs.«132353_j33432025432567_1_alg».proof.Proof.Gen.KernelIdeal.Points
import proofs.«132353_j33432025432567_1_alg».proof.Proof.Gen.KernelIdeal.Frame
import proofs.«132353_j33432025432567_1_alg».proof.Proof.Gen.ReferenceIdeal
import proofs.«132353_j33432025432567_1_alg».proof.Proof.Gen.ReferenceIdeal.Run
import proofs.«132353_j33432025432567_1_alg».proof.Proof.Gen.ReferenceIdeal.Read
import proofs.«132353_j33432025432567_1_alg».proof.Proof.Gen.Pre_finite_inputs
import proofs.«132353_j33432025432567_1_alg».proof.Proof.RunV
import proofs.«132353_j33432025432567_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the same result array: the kernel's is the
    last boundary's contents of its result buffer, which is the reference's last stage of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v62),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.KernelIdeal.Chain.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
